-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128x32 .f32) (main_arg10 : FVec F S32 .f32) (main_arg11 : FVec F S32x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg9
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S1600000 .f32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x32 : Shape := ⟨2, ![1, 32]⟩
abbrev S1x1 : Shape := ⟨2, ![1, 1]⟩
abbrev S5000x1 : Shape := ⟨2, ![5000, 1]⟩
abbrev S5000x32 : Shape := ⟨2, ![5000, 32]⟩

abbrev nBuf : Space → Nat
  | .hbm => 66
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S1x32, .f32⟩
  | .hbm, ⟨64, _⟩ => ⟨S1x1, .f32⟩
  | .hbm, ⟨65, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x32, .f32⟩
  | .local _ .vmem, ⟨17, _⟩ => ⟨S1x32, .f32⟩
  | .local _ .vmem, ⟨18, _⟩ => ⟨S32x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S32_S1x32 : S32.ShapeCasts S1x32
  shapeCasts_S1_S1x1 : S1.ShapeCasts S1x1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x32 : Shape := ⟨2, ![100000, 32]⟩
abbrev S1x32 : Shape := ⟨2, ![1, 32]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Layer.lean ====
/-
  The network's two building blocks as functions of whole arrays, read index by index on the extended reals.

  `layer64` / `layer128`: one graph-convolution layer. Output feature `o` of node `n` is the neighbourhood mean of
  `n` contracted with column `o` of `Wl`, plus `n`'s own features contracted with column `o` of `Wr`, plus the
  bias at `o`; a node's output depends on that node's rows only. (The two differ in the input width, 64 or 128.)
  `head`: the two dense layers applied to each node's 128 features: 128 → 32 with a bias, then 32 → 1 with a bias.
  Biases are taken as one-row arrays, the shape in which the kernels receive them.
-/
import Idealize.ShloMosaic.Lib.ValueIdx
import Idealize.ShloMosaic.PureOps.Ideal

noncomputable section

namespace Cert.Sage

open Idealize.ShloMosaic Idealize.ShloMosaic.ValueIdx

/-- A layer over 64 input features, the bias added last. -/
def layer64 (mean x : (⟨2, ![100000, 64]⟩ : Shape).Idx → EReal) (Wl Wr : (⟨2, ![64, 128]⟩ : Shape).Idx → EReal)
    (b : (⟨2, ![1, 128]⟩ : Shape).Idx → EReal) : (⟨2, ![100000, 128]⟩ : Shape).Idx → EReal :=
  fun i => ((∑ k : Fin 64, mean (ix2 (i 0) k) * Wl (ix2 k (i 1)))
      + ∑ k : Fin 64, x (ix2 (i 0) k) * Wr (ix2 k (i 1))) + b (ix2 0 (i 1))

/-- A layer over 128 input features, the bias added last. -/
def layer128 (mean x : (⟨2, ![100000, 128]⟩ : Shape).Idx → EReal) (Wl Wr : (⟨2, ![128, 128]⟩ : Shape).Idx → EReal)
    (b : (⟨2, ![1, 128]⟩ : Shape).Idx → EReal) : (⟨2, ![100000, 128]⟩ : Shape).Idx → EReal :=
  fun i => ((∑ k : Fin 128, mean (ix2 (i 0) k) * Wl (ix2 k (i 1)))
      + ∑ k : Fin 128, x (ix2 (i 0) k) * Wr (ix2 k (i 1))) + b (ix2 0 (i 1))

/-- The two dense layers of the head, node by node. -/
def head (h : (⟨2, ![100000, 128]⟩ : Shape).Idx → EReal) (W1 : (⟨2, ![128, 32]⟩ : Shape).Idx → EReal)
    (b1 : (⟨2, ![1, 32]⟩ : Shape).Idx → EReal) (W2 : (⟨2, ![32, 1]⟩ : Shape).Idx → EReal)
    (b2 : (⟨2, ![1, 1]⟩ : Shape).Idx → EReal) : (⟨2, ![100000, 1]⟩ : Shape).Idx → EReal :=
  fun i => (∑ k : Fin 32, ((∑ j : Fin 128, h (ix2 (i 0) j) * W1 (ix2 j k)) + b1 (ix2 0 k)) * W2 (ix2 k 0))
      + b2 (ix2 0 0)

end Cert.Sage

end
-- ==== Proof.Terms.lean ====
/-
  The host computations of the kernel's program around its two launches, named once.

  From the edge array (two rows of E words): `srcOf` is row 0, `dstOf` row 1. `wrapped src` adds N to a negative
  source word (the indexing convention for negative indices). `invDeg` is, per node, the reciprocal of the in-degree
  clamped below by one, the in-degree being a scatter-add of ones at the destination words. `aggMean64 x` /
  `aggMean128 h` gathers the source rows of a feature array, scatter-adds them at the destination words, and
  multiplies each node's row by that node's reciprocal degree: the neighbourhood mean the launches consume.
  These are the program's own operations in the program's own order; nothing is computed here.
-/
import proofs.«134655_j18760417149681_1_alg».proof.Proof.Gen.KernelIdeal
import proofs.«134655_j18760417149681_1_alg».proof.Proof.Layer
import Idealize.ShloMosaic.PureOps.Ideal

noncomputable section

namespace Cert.Sage

open Idealize.ShloMosaic Cert.KernelIdeal Cert.KernelIdeal.Facts₀ Cert.KernelIdeal.Facts

/-- Row 0 of the edge array: the source word of each edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge array: the destination word of each edge. -/
def dstOf (ei : IVec S2x1600000 32) : IVec S1600000 32 :=
  shapeCast S1600000 (extractStridedSlice S1x1600000 ![1, 0] ei slices_S2x1600000_S1x1600000_1_0) shapeCasts_S1x1600000_S1600000

/-- A source word with the negative ones moved up by N. -/
def wrapped (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The in-degree of each node: ones scatter-added at the destination words. -/
def degree (dst : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- One over the in-degree clamped below by one, as a column. -/
def invDeg (dst : IVec S1600000 32) : FVec Ideal S100000x1 .f32 :=
  shapeCast S100000x1
    (Host.divf (broadcastInDim S100000 ![] bcast_S_S100000 (constant S_ .f32 0x3F800000#32))
      (maximumf (degree dst) (broadcastInDim S100000 ![] bcast_S_S100000 (constant S_ .f32 0x3F800000#32))))
    shapeCasts_S100000_S100000x1

/-- The summed messages of 64 features: the source rows gathered, scatter-added at the destinations. -/
def agg64 (x : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0 (wrapped src)))

/-- The summed messages of 128 features. -/
def agg128 (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0 (wrapped src)))

/-- The neighbourhood mean of 64 features, as the kernel's program forms it: summed messages times reciprocal degree. -/
def aggMean64 (x : FVec Ideal S100000x64 .f32) (src dst : IVec S1600000 32) (inv : FVec Ideal S100000x1 .f32) :
    FVec Ideal S100000x64 .f32 :=
  mulf (agg64 x src dst) (broadcastInDim S100000x64 ![0, 1] bcast_S100000x1_S100000x64_0_1 inv)

/-- The neighbourhood mean of 128 features, likewise. -/
def aggMean128 (h : FVec Ideal S100000x128 .f32) (src dst : IVec S1600000 32) (inv : FVec Ideal S100000x1 .f32) :
    FVec Ideal S100000x128 .f32 :=
  mulf (agg128 h src dst) (broadcastInDim S100000x128 ![0, 1] bcast_S100000x1_S100000x128_0_1 inv)

/-- Layer one's output as the kernel's program forms it: the layer function of the neighbourhood mean of the input
    features, the input features, layer one's weights and its bias as a row. -/
def hiddenK (x0 : FVec Ideal S100000x64 .f32) (x1 : IVec S2x1600000 32) (x3 x4 : FVec Ideal S64x128 .f32)
    (x5 : FVec Ideal S128 .f32) : FVec Ideal S100000x128 .f32 :=
  layer64 (aggMean64 x0 (srcOf x1) (dstOf x1) (invDeg (dstOf x1))) x0 x3 x4 (shapeCast S1x128 x5 Facts₀.shapeCasts_S128_S1x128)

/-- What the kernel's program returns: the head of layer two, layer two being the layer function of the neighbourhood
    mean of layer one's output, layer one's output, layer two's weights and its bias as a row. -/
def kernelOut (x0 : FVec Ideal S100000x64 .f32) (x1 : IVec S2x1600000 32) (x3 x4 : FVec Ideal S64x128 .f32)
    (x5 : FVec Ideal S128 .f32) (x6 x7 : FVec Ideal S128x128 .f32) (x8 : FVec Ideal S128 .f32)
    (x9 : FVec Ideal S128x32 .f32) (x10 : FVec Ideal S32 .f32) (x11 : FVec Ideal S32x1 .f32) (x12 : FVec Ideal S1 .f32) :
    FVec Ideal S100000x1 .f32 :=
  head (layer128 (aggMean128 (hiddenK x0 x1 x3 x4 x5) (srcOf x1) (dstOf x1) (invDeg (dstOf x1))) (hiddenK x0 x1 x3 x4 x5)
      x6 x7 (shapeCast S1x128 x8 Facts₀.shapeCasts_S128_S1x128))
    x9 (shapeCast S1x32 x10 Facts₀.shapeCasts_S32_S1x32) x11 (shapeCast S1x1 x12 Facts₀.shapeCasts_S1_S1x1)

end Cert.Sage

end
-- ==== Proof.Region0.lean ====
import proofs.«134655_j18760417149681_1_alg».proof.Proof.Gen.KernelIdeal.Frame
import proofs.«134655_j18760417149681_1_alg».proof.Proof.Layer
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.TcCoe Idealize.SL.Sem Idealize.ShloMosaic.ValueIdx Cert.KernelIdeal Cert.KernelIdeal.Gen

/-! ## The block product [5000,64] × [64,128] at an index -/

/-- The left operand's row is the output's row. -/
theorem lhs_rows64_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- The left operand's column is the contraction index. -/
theorem lhs_rows64_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row is the contraction index. -/
theorem rhs_rows64_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- The right operand's column is the output's column. -/
theorem rhs_rows64_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A block product into the zero accumulator, at row `p` and column `q`, is the sum over the 64 contracted
    positions of the operands' products. -/
theorem matmul_rows64_apply {φ₁ φ₂ : FTy} (a : FVec Ideal S5000x64 φ₁) (b : FVec Ideal S64x128 φ₂) (p : Fin 5000) (q : Fin 128) :
    FloatOps.matmul (F := Ideal) dot_S5000x64_S64x128_S5000x128_1_0_0_1_n_n none a b (constant (F := Ideal) S5000x128 .f32 0x00000000#32) (ix2 p q)
      = ∑ k : Fin 64, a (ix2 p k) * b (ix2 k q) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_rows64_0 _ _
    | ⟨1, _⟩ => exact (lhs_rows64_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_rows64_0 _ _).trans hk
    | ⟨1, _⟩ => exact rhs_rows64_1 _ _)
  rw [el, er]

/-! ## The body's payload at an index -/

/-- The one-row bias, broadcast down the rows, reads its column. -/
theorem bias_row_apply (x4 : Vec Ideal S1x128 .f32) (p : Fin 5000) (q : Fin 128) :
    broadcastTo S5000x128 x4 broadcasts_S1x128_S5000x128 (ix2 p q) = x4 (ix2 0 q) := by
  refine broadcastTo_apply x4 _ _ _ fun a => ?_
  match a with
  | ⟨0, _⟩ => rfl
  | ⟨1, _⟩ => rfl

/-- What the body stores at row `p`, column `q` of its block: the two products' sum plus the bias. -/
theorem payload_apply (x0 x1 : Vec Ideal S5000x64 .f32) (x2 x3 : Vec Ideal S64x128 .f32) (x4 : Vec Ideal S1x128 .f32)
    (p : Fin 5000) (q : Fin 128) :
    k0_pay1 (F := Ideal) x0 x1 x2 x3 x4 (ix2 p q)
      = ((∑ k : Fin 64, x0 (ix2 p k) * x2 (ix2 k q)) + ∑ k : Fin 64, x1 (ix2 p k) * x3 (ix2 k q)) + x4 (ix2 0 q) := by
  unfold k0_pay1
  rw [addf_apply, addf_apply, shapeCast_self, shapeCast_self, bias_row_apply]
  show FloatOps.matmul (F := Ideal) _ none _ _ _ _ + FloatOps.matmul (F := Ideal) _ none _ _ _ _ + _ = _
  rw [matmul_rows64_apply, matmul_rows64_apply]
  simp only [truncf_apply]

/-! ## From the blocks to the whole array -/

theorem zero_offsets : (![0, 0] : Fin 2 → Nat) = fun _ => 0 := funext fun a => by fin_cases a <;> rfl

/-- The index maps over the 20 grid points: the two row-blocked inputs move with the output's row block, point `t` at
    block `t`; the two weight matrices and the bias stay at their one block. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's output at row `r`, column `q`. -/
theorem layer64_at (mean x : (⟨2, ![100000, 64]⟩ : Shape).Idx → EReal) (Wl Wr : (⟨2, ![64, 128]⟩ : Shape).Idx → EReal)
    (b : (⟨2, ![1, 128]⟩ : Shape).Idx → EReal) (i : (⟨2, ![100000, 128]⟩ : Shape).Idx) (r : Fin 100000) (q : Fin 128)
    (hi : i = ix2 r q) :
    layer64 mean x Wl Wr b i
      = ((∑ k : Fin 64, mean (ix2 r k) * Wl (ix2 k q)) + ∑ k : Fin 64, x (ix2 r k) * Wr (ix2 k q)) + b (ix2 0 q) := by
  subst hi; rfl

/-- What point `t` writes back is block `t` of the layer's output. -/
theorem flushed_eq_block (V : (c : Dev nD) → (b : Ref sig .tc) → Buf (Elt Ideal) ((c : Thread nD τ).loc b)) (c : Dev nD) (t : Fin cfg0.N) :
    (dat0 (F := Ideal) V c).flushed 5 t
      = ((cfg0.win 5).blk t).view.read (Elt Ideal) (layer64 (V c main_v24) (V c main_arg0) (V c main_arg3) (V c main_arg4) (V c main_v25)) := by
  show (cfg0.win 5).cut (grid0.coords t) ((dat0 (F := Ideal) V c).after 5 t) = _
  rw [after0_5]
  unfold out0_5
  rw [View.canon_unit_zero zero_offsets]
  simp only [View.ld_unit_zero (S := S5000x64) zero_offsets, View.ld_unit_zero (S := S64x128) zero_offsets, View.ld_unit_zero (S := S1x128) zero_offsets]
  obtain ⟨e00, e01, e10, e11, e20, e21, e30, e31, e40, e41, e50, e51⟩ := index_maps t
  refine funext fun (j : S5000x128.Idx) => ?_
  show k0_pay1 (F := Ideal) (iblk0 V c 0 t) (iblk0 V c 1 t) (iblk0 V c 2 t) (iblk0 V c 3 t) (iblk0 V c 4 t) j
    = layer64 (V c main_v24) (V c main_arg0) (V c main_arg3) (V c main_arg4) (V c main_v25) (((cfg0.win 5).blk t).view.emb j)
  obtain ⟨p, q, rfl⟩ : ∃ (p : Fin 5000) (q : Fin 128), j = ix2 p q := ⟨j 0, j 1, eq_ix2 j⟩
  refine (payload_apply _ _ _ _ _ p q).trans ?_
  have ht : t.val < 20 := lt_of_lt_of_eq t.isLt N_0
  have hr : t.val * 5000 + p.val < 100000 := by have := p.isLt; omega
  have e5 : ((cfg0.win 5).blk t).view.emb (ix2 p q) = (ix2 (⟨t.val * 5000 + p.val, hr⟩ : Fin 100000) q : S100000x128.Idx) := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [layer64_at _ _ _ _ _ _ _ _ e5]
  have h0 : ∀ k : Fin 64, iblk0 V c 0 t (ix2 p k) = V c main_v24 (ix2 (⟨t.val * 5000 + p.val, hr⟩ : Fin 100000) k : S100000x64.Idx) := fun k => by
    show V c main_v24 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have h1 : ∀ k : Fin 64, iblk0 V c 1 t (ix2 p k) = V c main_arg0 (ix2 (⟨t.val * 5000 + p.val, hr⟩ : Fin 100000) k : S100000x64.Idx) := fun k => by
    show V c main_arg0 (((cfg0.win 1).blk t).view.emb (ix2 p k)) = _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  have h2 : ∀ k : Fin 64, iblk0 V c 2 t (ix2 k q) = V c main_arg3 (ix2 k q : S64x128.Idx) := fun k => by
    show V c main_arg3 (((cfg0.win 2).blk t).view.emb (ix2 k q)) = _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = q.val; omega
  have h3 : ∀ k : Fin 64, iblk0 V c 3 t (ix2 k q) = V c main_arg4 (ix2 k q : S64x128.Idx) := fun k => by
    show V c main_arg4 (((cfg0.win 3).blk t).view.emb (ix2 k q)) = _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = q.val; omega
  have h4 : iblk0 V c 4 t (ix2 0 q) = V c main_v25 (ix2 0 q : S1x128.Idx) := by
    show V c main_v25 (((cfg0.win 4).blk t).view.emb (ix2 0 q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  exact congrArg₂ (· + ·) (congrArg₂ (· + ·)
    (Finset.sum_congr rfl fun k _ => congrArg₂ (· * ·) (h0 k) (h2 k))
    (Finset.sum_congr rfl fun k _ => congrArg₂ (· * ·) (h1 k) (h3 k))) h4

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The 20 row blocks of 5000 tile the 100000 rows: row `r` is in the block of point `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (b := 20) (by omega) N_0.symm⟩, rfl⟩
  obtain ⟨-, -, -, -, -, -, -, -, -, -, e50, e51⟩ := index_maps t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the layer of the region's input arrays as it found them. -/
theorem region0_array (V : (c : Dev nD) → (b : Ref sig .tc) → Buf (Elt Ideal) ((c : Thread nD τ).loc b)) (c : Dev nD) :
    (dat0 (F := Ideal) V c).arrAt 5 cfg0.N
      = layer64 (V c main_v24) (V c main_arg0) (V c main_arg3) (V c main_arg4) (V c main_v25) :=
  (dat0 (F := Ideal) V c).arrAt_eq_of_cover 5 _ (fun t _ => flushed_eq_block V c t) covered

end Cert.Sage

end
-- ==== Proof.Region1.lean ====
/-
  The second kernel's output array after its grid has run: the head (two dense layers) applied, node by node, to one
  128-feature graph-convolution layer of the arrays the kernel is handed.

  The kernel's body, at one block of 5000 nodes, is three matrix products with biases. Read at a row `p` of the block it
  is the layer's formula on that row, then the head's. Block `t` holds rows `5000 t … 5000 t + 4999` of the node arrays
  and the weights whole, so what grid point `t` writes back is block `t` of the whole-array function; the twenty blocks
  tile the 100000 rows, hence the array ends holding that function.
-/
import proofs.«134655_j18760417149681_1_alg».proof.Proof.Gen.KernelIdeal.Frame
import proofs.«134655_j18760417149681_1_alg».proof.Proof.Layer
import Idealize.ShloMosaic.Lib.Pipeline.Value
import Idealize.ShloMosaic.Lib.ValueIdx
import Idealize.ShloMosaic.PureOps.Ideal.Laws

noncomputable section

namespace Cert.Sage

open Idealize.ShloMosaic Idealize.ShloMosaic.TcCoe Idealize.SL.Sem Idealize.ShloMosaic.ValueIdx Cert.KernelIdeal Cert.KernelIdeal.Gen

/-! ## The three matrix products, read at an index -/

/-- Left operand of the conv product: its row is the output's row. -/
theorem lhs_conv_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Left operand of the conv product: its column is the contraction index. -/
theorem lhs_conv_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Right operand of the conv product: its row is the contraction index. -/
theorem rhs_conv_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Right operand of the conv product: its column is the output's column. -/
theorem rhs_conv_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 weight, into the zero accumulator: entry `(p, q)` is the sum over the 128 features. -/
theorem matmul_conv_apply (A : FVec Ideal S5000x128 .bf16) (B : FVec Ideal S128x128 .bf16) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_conv_0 _ _
    | ⟨1, _⟩ => exact (lhs_conv_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_conv_0 _ _).trans hk
    | ⟨1, _⟩ => exact rhs_conv_1 _ _)
  rw [el, er]

/-- Left operand of the dense1 product: its row is the output's row. -/
theorem lhs_dense1_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- Left operand of the dense1 product: its column is the contraction index. -/
theorem lhs_dense1_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- Right operand of the dense1 product: its row is the contraction index. -/
theorem rhs_dense1_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- Right operand of the dense1 product: its column is the output's column. -/
theorem rhs_dense1_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- A block of 5000 rows times the 128 × 32 weight of the first dense layer, into the zero accumulator. -/
theorem matmul_dense1_apply (A : FVec Ideal S5000x128 .bf16) (B : FVec Ideal S128x32 .bf16) (p : Fin 5000) (q : Fin 32) :
    matmul (F := Ideal) dot_S5000x128_S128x32_S5000x32_1_0_0_1_n_n none A B (constant (F := Ideal) S5000x32 .f32 0x00000000#32) (ix2 p q)
      = ∑ k : Fin 128, A (ix2 p k) * B (ix2 k q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact lhs_dense1_0 _ _
    | ⟨1, _⟩ => exact (lhs_dense1_1 _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (rhs_dense1_0 _ _).trans hk
    | ⟨1, _⟩ => exact rhs_dense1_1 _ _)
  rw [el, er]

/-- Left operand of the dense2 product: its row is the output's row. -/
theorem lhs_dense2_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
/-- Left operand of the dense2 product: its column is the contraction index. -/
theorem lhs_dense2_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
/-- Right operand of the dense2 product: its row is the contraction index. -/
theorem rhs_dense2_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
/-- Right operand of the dense2 product: its column is the output's column. -/
theorem rhs_dense2_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- A block of 5000 rows times the 32 × 1 weight of the second dense layer, into the zero accumulator. -/
theorem matmul_dense2_apply (A : FVec Ideal S5000x32 .bf16) (B : FVec Ideal S32x1 .bf16) (p : Fin 5000) (q : Fin 1) :
    matmul (F := Ideal) dot_S5000x32_S32x1_S5000x1_1_0_0_1_n_n none A B (constant (F := Ideal) S5000x1 .f32 0x00000000#32) (ix2 p q)
      = ∑ k : Fin 32, A (ix2 p k) * B (ix2 k q) := by
  simp only [matmul]
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 p q) ((contrEquiv1 dot_S5000x32_S32x1_S5000x1_1_0_0_1_n_n 32 rfl rfl).symm k) = ix2 p k := funext fun a => Fin.ext (by
    match a with
    | ⟨0, _⟩ => exact lhs_dense2_0 _ _
    | ⟨1, _⟩ => exact (lhs_dense2_1 _ _).trans hk)
  have er : dot_S5000x32_S32x1_S5000x1_1_0_0_1_n_n.rhsIdx (ix2 p q) ((contrEquiv1 dot_S5000x32_S32x1_S5000x1_1_0_0_1_n_n 32 rfl rfl).symm k) = ix2 k q := funext fun a => Fin.ext (by
    match a with
    | ⟨0, _⟩ => exact (rhs_dense2_0 _ _).trans hk
    | ⟨1, _⟩ => exact rhs_dense2_1 _ _)
  rw [el, er]

/-! ## The biases, one row each, spread over a block's rows -/

/-- The layer's bias row spread over 5000 rows reads the row at the column. -/
theorem bias_row128_apply (b : FVec Ideal S1x128 .f32) (p : Fin 5000) (j : Fin 128) :
    broadcastTo S5000x128 b broadcasts_S1x128_S5000x128 (ix2 p j) = b (ix2 0 j) :=
  broadcastTo_apply b _ (ix2 p j) (ix2 0 j) (fun a => by match a with | ⟨0, _⟩ => rfl | ⟨1, _⟩ => rfl)

/-- The first dense layer's bias row spread over 5000 rows reads the row at the column. -/
theorem bias_row32_apply (b : FVec Ideal S1x32 .f32) (p : Fin 5000) (k : Fin 32) :
    broadcastTo S5000x32 b broadcasts_S1x32_S5000x32 (ix2 p k) = b (ix2 0 k) :=
  broadcastTo_apply b _ (ix2 p k) (ix2 0 k) (fun a => by match a with | ⟨0, _⟩ => rfl | ⟨1, _⟩ => rfl)

/-- The second dense layer's bias, one number, spread over 5000 rows reads that number. -/
theorem bias_row1_apply (b : FVec Ideal S1x1 .f32) (p : Fin 5000) (q : Fin 1) :
    broadcastTo S5000x1 b broadcasts_S1x1_S5000x1 (ix2 p q) = b (ix2 0 0) :=
  broadcastTo_apply b _ (ix2 p q) (ix2 0 0) (fun a => by match a with | ⟨0, _⟩ => rfl | ⟨1, _⟩ => rfl)

/-! ## The body's result at a row of the block -/

/-- Row `p` of what the body stores: the layer's formula on row `p` of the two node blocks, then the two dense layers. -/
theorem head_block_apply (x0 x1 : Vec Ideal S5000x128 .f32) (x2 x3 : Vec Ideal S128x128 .f32) (x4 : Vec Ideal S1x128 .f32)
    (x5 : Vec Ideal S128x32 .f32) (x6 : Vec Ideal S1x32 .f32) (x7 : Vec Ideal S32x1 .f32) (x8 : Vec Ideal S1x1 .f32) (p : Fin 5000) :
    k1_pay1 (F := Ideal) x0 x1 x2 x3 x4 x5 x6 x7 x8 (ix2 p 0)
      = (∑ k : Fin 32, ((∑ j : Fin 128, (((∑ a : Fin 128, x0 (ix2 p a) * x2 (ix2 a j))
            + ∑ a : Fin 128, x1 (ix2 p a) * x3 (ix2 a j)) + x4 (ix2 0 j)) * x5 (ix2 j k)) + x6 (ix2 0 k)) * x7 (ix2 k 0))
          + x8 (ix2 0 0) := by
  unfold k1_pay1
  simp only [shapeCast_self, addf_apply, matmul_dense2_apply, bias_row1_apply, truncf_apply, matmul_dense1_apply,
    bias_row32_apply, matmul_conv_apply, bias_row128_apply]

/-! ## One block against the whole arrays -/

/-- If the body's nine loaded blocks are: rows of two node arrays at the node `i 0` (row `p` of the block), and the
    five weight and bias arrays whole, then row `p` of what the body stores is the head of the layer at node `i 0`. -/
theorem head_block_eq (A0 A1 : (⟨2, ![100000, 128]⟩ : Shape).Idx → EReal) (A2 A3 : (⟨2, ![128, 128]⟩ : Shape).Idx → EReal)
    (A4 : (⟨2, ![1, 128]⟩ : Shape).Idx → EReal) (A5 : (⟨2, ![128, 32]⟩ : Shape).Idx → EReal)
    (A6 : (⟨2, ![1, 32]⟩ : Shape).Idx → EReal) (A7 : (⟨2, ![32, 1]⟩ : Shape).Idx → EReal)
    (A8 : (⟨2, ![1, 1]⟩ : Shape).Idx → EReal)
    (x0 x1 : Vec Ideal S5000x128 .f32) (x2 x3 : Vec Ideal S128x128 .f32) (x4 : Vec Ideal S1x128 .f32)
    (x5 : Vec Ideal S128x32 .f32) (x6 : Vec Ideal S1x32 .f32) (x7 : Vec Ideal S32x1 .f32) (x8 : Vec Ideal S1x1 .f32)
    (p : Fin 5000) (i : (⟨2, ![100000, 1]⟩ : Shape).Idx)
    (h0 : ∀ a : Fin 128, x0 (ix2 p a) = A0 (ix2 (i 0) a)) (h1 : ∀ a : Fin 128, x1 (ix2 p a) = A1 (ix2 (i 0) a))
    (h2 : ∀ y, x2 y = A2 y) (h3 : ∀ y, x3 y = A3 y) (h4 : ∀ y, x4 y = A4 y) (h5 : ∀ y, x5 y = A5 y)
    (h6 : ∀ y, x6 y = A6 y) (h7 : ∀ y, x7 y = A7 y) (h8 : ∀ y, x8 y = A8 y) :
    k1_pay1 (F := Ideal) x0 x1 x2 x3 x4 x5 x6 x7 x8 (ix2 p 0) = head (layer128 A0 A1 A2 A3 A4) A5 A6 A7 A8 i := by
  rw [head_block_apply]
  unfold head layer128
  simp only [h0, h1, h2, h3, h4, h5, h6, h7, h8]

/-! ## From blocks to the array -/

/-- Zero offsets on both axes, however spelt. -/
theorem zero_offsets2 : (![0, 0] : Fin 2 → Nat) = fun _ => 0 := funext fun a => by fin_cases a <;> rfl

/-- The printed index maps, decided over the twenty grid points: the two node windows and the output move down the
    rows with the point, block `t` at point `t`; the weight and bias windows stay at block `(0, 0)`. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

section
variable (V : (c : Dev nD) → (b : Ref sig .tc) → Buf (Elt Ideal) ((c : Thread nD τ).loc b))

/-- Row `p` of what the body leaves at point `t` is the whole-array function at the node that row stands for. -/
theorem body_row_eq (c : Dev nD) (t : Fin cfg1.N) (p : Fin 5000) :
    k1_pay1 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (ix2 p 0)
      = head (layer128 (V c main_v38) (V c main_v26) (V c main_arg6) (V c main_arg7) (V c main_v39))
            (V c main_arg9) (V c main_v40) (V c main_arg11) (V c main_v41)
          (((cfg1.win 9).blk t).view.emb (ix2 p 0)) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩⟩ := block_indices t
  refine head_block_eq _ _ _ _ _ _ _ _ _ _ _ _ _ _ _ _ _ _ p _ ?_ ?_ ?_ ?_ ?_ ?_ ?_ ?_ ?_
  · intro a
    show V c main_v38 (((cfg1.win 0).blk t).view.emb (ix2 p a)) = V c main_v38 (ix2 ((((cfg1.win 9).blk t).view.emb (ix2 p 0)) 0) a)
    refine congrArg _ (funext fun b => Fin.ext ?_)
    match b with
    | ⟨0, _⟩ => show win1_0.index t (0 : Fin 2) * 5000 + 1 * p.val = win1_9.index t (0 : Fin 2) * 5000 + 1 * p.val; omega
    | ⟨1, _⟩ => show win1_0.index t (1 : Fin 2) * 128 + 1 * a.val = a.val; omega
  · intro a
    show V c main_v26 (((cfg1.win 1).blk t).view.emb (ix2 p a)) = V c main_v26 (ix2 ((((cfg1.win 9).blk t).view.emb (ix2 p 0)) 0) a)
    refine congrArg _ (funext fun b => Fin.ext ?_)
    match b with
    | ⟨0, _⟩ => show win1_1.index t (0 : Fin 2) * 5000 + 1 * p.val = win1_9.index t (0 : Fin 2) * 5000 + 1 * p.val; omega
    | ⟨1, _⟩ => show win1_1.index t (1 : Fin 2) * 128 + 1 * a.val = a.val; omega
  · intro y
    show V c main_arg6 (((cfg1.win 2).blk t).view.emb y) = V c main_arg6 y
    refine congrArg _ (funext fun b => Fin.ext ?_)
    match b with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    show V c main_arg7 (((cfg1.win 3).blk t).view.emb y) = V c main_arg7 y
    refine congrArg _ (funext fun b => Fin.ext ?_)
    match b with
    | ⟨0, _⟩ => show win1_3.index t (0 : Fin 2) * 128 + 1 * (y 0).val = (y 0).val; omega
    | ⟨1, _⟩ => show win1_3.index t (1 : Fin 2) * 128 + 1 * (y 1).val = (y 1).val; omega
  · intro y
    show V c main_v39 (((cfg1.win 4).blk t).view.emb y) = V c main_v39 y
    refine congrArg _ (funext fun b => Fin.ext ?_)
    match b with
    | ⟨0, _⟩ => show win1_4.index t (0 : Fin 2) * 1 + 1 * (y 0).val = (y 0).val; omega
    | ⟨1, _⟩ => show win1_4.index t (1 : Fin 2) * 128 + 1 * (y 1).val = (y 1).val; omega
  · intro y
    show V c main_arg9 (((cfg1.win 5).blk t).view.emb y) = V c main_arg9 y
    refine congrArg _ (funext fun b => Fin.ext ?_)
    match b with
    | ⟨0, _⟩ => show win1_5.index t (0 : Fin 2) * 128 + 1 * (y 0).val = (y 0).val; omega
    | ⟨1, _⟩ => show win1_5.index t (1 : Fin 2) * 32 + 1 * (y 1).val = (y 1).val; omega
  · intro y
    show V c main_v40 (((cfg1.win 6).blk t).view.emb y) = V c main_v40 y
    refine congrArg _ (funext fun b => Fin.ext ?_)
    match b with
    | ⟨0, _⟩ => show win1_6.index t (0 : Fin 2) * 1 + 1 * (y 0).val = (y 0).val; omega
    | ⟨1, _⟩ => show win1_6.index t (1 : Fin 2) * 32 + 1 * (y 1).val = (y 1).val; omega
  · intro y
    show V c main_arg11 (((cfg1.win 7).blk t).view.emb y) = V c main_arg11 y
    refine congrArg _ (funext fun b => Fin.ext ?_)
    match b with
    | ⟨0, _⟩ => show win1_7.index t (0 : Fin 2) * 32 + 1 * (y 0).val = (y 0).val; omega
    | ⟨1, _⟩ => show win1_7.index t (1 : Fin 2) * 1 + 1 * (y 1).val = (y 1).val; omega
  · intro y
    show V c main_v41 (((cfg1.win 8).blk t).view.emb y) = V c main_v41 y
    refine congrArg _ (funext fun b => Fin.ext ?_)
    match b with
    | ⟨0, _⟩ => show win1_8.index t (0 : Fin 2) * 1 + 1 * (y 0).val = (y 0).val; omega
    | ⟨1, _⟩ => show win1_8.index t (1 : Fin 2) * 1 + 1 * (y 1).val = (y 1).val; omega

/-- The same at every index of the block: the block has one column. -/
theorem body_eq (c : Dev nD) (t : Fin cfg1.N) (j : S5000x1.Idx) :
    k1_pay1 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) j
      = head (layer128 (V c main_v38) (V c main_v26) (V c main_arg6) (V c main_arg7) (V c main_v39))
            (V c main_arg9) (V c main_v40) (V c main_arg11) (V c main_v41)
          (((cfg1.win 9).blk t).view.emb j) := by
  obtain ⟨p, q, rfl⟩ : ∃ (p : Fin 5000) (q : Fin 1), j = ix2 p q := ⟨j 0, j 1, eq_ix2 j⟩
  obtain rfl : q = 0 := Subsingleton.elim _ _
  exact body_row_eq V c t p

/-- What grid point `t` writes back is block `t` of the whole-array function of the arrays as the kernel finds them. -/
theorem flushed_head (c : Dev nD) (t : Fin cfg1.N) :
    (dat1 (F := Ideal) V c).flushed 9 t
      = ((cfg1.win 9).blk t).view.read (Elt Ideal)
          (head (layer128 (V c main_v38) (V c main_v26) (V c main_arg6) (V c main_arg7) (V c main_v39))
            (V c main_arg9) (V c main_v40) (V c main_arg11) (V c main_v41)) := by
  show (cfg1.win 9).cut (grid1.coords t) ((dat1 (F := Ideal) V c).after 9 t) = _
  rw [after1_9]
  unfold out1_9
  rw [View.canon_unit_zero zero_offsets2]
  simp only [View.ld_unit_zero (S := S5000x128) zero_offsets2, View.ld_unit_zero (S := S128x128) zero_offsets2,
    View.ld_unit_zero (S := S1x128) zero_offsets2, View.ld_unit_zero (S := S128x32) zero_offsets2,
    View.ld_unit_zero (S := S1x32) zero_offsets2, View.ld_unit_zero (S := S32x1) zero_offsets2,
    View.ld_unit_zero (S := S1x1) zero_offsets2]
  funext j
  exact body_eq V c t j

end

/-- An index of the output array is in point `t`'s block iff each coordinate is in the block's range on its axis. -/
theorem mem_out_block (t : Fin cfg1.N) (i : S100000x1.Idx) :
    i ∈ ((cfg1.win 9).blk t).view.set
      ↔ ∀ a : Fin 2, win1_9.index t a * S5000x1.size a ≤ (i a).val ∧ (i a).val < win1_9.index t a * S5000x1.size a + S5000x1.size a := by
  show i ∈ ((View.whole main_v42).slice (win1_9.rect t)).set ↔ _
  rw [View.set_slice_whole, Rect.mem_set_unit]
  exact Iff.rfl

/-- The twenty row blocks tile the 100000 rows: node `r` is in the block of point `r / 5000`. -/
theorem out_blocks_cover (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  have hN : cfg1.N = 20 := N_1
  have ht : (i 0).val / 5000 < cfg1.N := by omega
  obtain ⟨-, -, -, -, -, -, -, -, -, e90, e91⟩ := block_indices ⟨(i 0).val / 5000, ht⟩
  refine ⟨⟨(i 0).val / 5000, ht⟩, flush1_9 _, ?_⟩
  rw [mem_out_block]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    rw [e90]; show (i 0).val / 5000 * 5000 ≤ (i 0).val ∧ (i 0).val < (i 0).val / 5000 * 5000 + 5000; omega
  | ⟨1, _⟩ =>
    show win1_9.index ⟨(i 0).val / 5000, ht⟩ (1 : Fin 2) * 1 ≤ (i 1).val
      ∧ (i 1).val < win1_9.index ⟨(i 0).val / 5000, ht⟩ (1 : Fin 2) * 1 + 1
    rw [e91]; omega

/-- The output array after the grid has run: the head of the 128-feature layer of the arrays the kernel is handed. -/
theorem region1_array (V : (c : Dev nD) → (b : Ref sig .tc) → Buf (Elt Ideal) ((c : Thread nD τ).loc b)) (c : Dev nD) :
    (dat1 (F := Ideal) V c).arrAt 9 cfg1.N
      = head (layer128 (V c main_v38) (V c main_v26) (V c main_arg6) (V c main_arg7) (V c main_v39))
          (V c main_arg9) (V c main_v40) (V c main_arg11) (V c main_v41) :=
  (dat1 (F := Ideal) V c).arrAt_eq_of_cover 9 _ (fun t _ => flushed_head V c t) out_blocks_cover

end Cert.Sage

end
-- ==== Proof.KernelValue.lean ====
/-
  What the kernel's program returns, as a function of its arguments.

  The run's buffer contents at the four boundaries are folds over the launch memory: after the first stretch of host
  operations, after the first launch, after the second stretch, after the second launch. Reading them back one buffer
  at a time: the first stretch leaves the neighbourhood mean of the input features, the bias as a row, and the edge
  words and reciprocal degrees the second stretch reuses; the first launch leaves layer one's output (the first
  layer function of those); the second stretch leaves the neighbourhood mean of layer one's output and the three
  biases as rows; the second launch leaves the head of layer two. Every argument array is read back as launched.
-/
import proofs.«134655_j18760417149681_1_alg».proof.Proof.Gen.KernelIdeal.Frame
import proofs.«134655_j18760417149681_1_alg».proof.Proof.Terms
import proofs.«134655_j18760417149681_1_alg».proof.Proof.Layer
import proofs.«134655_j18760417149681_1_alg».proof.Proof.Region0
import proofs.«134655_j18760417149681_1_alg».proof.Proof.Region1
import Idealize.ShloMosaic.Lib.StableHlo.Run
import Idealize.ShloMosaic.PureOps.Ideal

set_option maxRecDepth 8192

noncomputable section

namespace Cert.Sage

open Idealize.ShloMosaic Idealize.ShloMosaic.TcCoe Idealize.SL.Sem Idealize.ShloMosaic.StableHlo Cert.KernelIdeal Cert.KernelIdeal.Gen Cert.KernelIdeal.Facts₀ Cert.KernelIdeal.Facts

variable (m : (ℓ : Loc nD τ sig) → Buf (Elt Ideal) ℓ) (ρ : Dev nD → PrngReg) (c : Dev nD)

/-! ## After the first stretch of host operations -/

set_option maxHeartbeats 8000000 in
/-- The input features, untouched by the first stretch. -/
theorem first_arg0 : (W1 (F := Ideal) m ρ c (Proc.devRef .tc main_arg0) : FVec Ideal S100000x64 .f32) = m ((c : Thread nD τ).loc main_arg0) := by
  show StableHlo.after hostOps0 (W0 m ρ c) (Proc.devRef .tc main_arg0) = _
  after_results_simp

set_option maxHeartbeats 8000000 in
theorem first_arg3 : (W1 (F := Ideal) m ρ c (Proc.devRef .tc main_arg3) : FVec Ideal S64x128 .f32) = m ((c : Thread nD τ).loc main_arg3) := by
  show StableHlo.after hostOps0 (W0 m ρ c) (Proc.devRef .tc main_arg3) = _
  after_results_simp

set_option maxHeartbeats 8000000 in
theorem first_arg4 : (W1 (F := Ideal) m ρ c (Proc.devRef .tc main_arg4) : FVec Ideal S64x128 .f32) = m ((c : Thread nD τ).loc main_arg4) := by
  show StableHlo.after hostOps0 (W0 m ρ c) (Proc.devRef .tc main_arg4) = _
  after_results_simp

set_option maxHeartbeats 8000000 in
theorem first_arg8 : (W1 (F := Ideal) m ρ c (Proc.devRef .tc main_arg8) : FVec Ideal S128 .f32) = m ((c : Thread nD τ).loc main_arg8) := by
  show StableHlo.after hostOps0 (W0 m ρ c) (Proc.devRef .tc main_arg8) = _
  after_results_simp

set_option maxHeartbeats 8000000 in
theorem first_arg10 : (W1 (F := Ideal) m ρ c (Proc.devRef .tc main_arg10) : FVec Ideal S32 .f32) = m ((c : Thread nD τ).loc main_arg10) := by
  show StableHlo.after hostOps0 (W0 m ρ c) (Proc.devRef .tc main_arg10) = _
  after_results_simp

set_option maxHeartbeats 8000000 in
theorem first_arg12 : (W1 (F := Ideal) m ρ c (Proc.devRef .tc main_arg12) : FVec Ideal S1 .f32) = m ((c : Thread nD τ).loc main_arg12) := by
  show StableHlo.after hostOps0 (W0 m ρ c) (Proc.devRef .tc main_arg12) = _
  after_results_simp

set_option maxHeartbeats 8000000 in
/-- The source words. -/
theorem first_src : (W1 (F := Ideal) m ρ c (Proc.devRef .tc main_v1) : IVec S1600000 32) = srcOf (m ((c : Thread nD τ).loc main_arg1)) := by
  show StableHlo.after hostOps0 (W0 m ρ c) (Proc.devRef .tc main_v1) = _
  after_results_simp
  rfl

set_option maxHeartbeats 8000000 in
/-- The destination words. -/
theorem first_dst : (W1 (F := Ideal) m ρ c (Proc.devRef .tc main_v3) : IVec S1600000 32) = dstOf (m ((c : Thread nD τ).loc main_arg1)) := by
  show StableHlo.after hostOps0 (W0 m ρ c) (Proc.devRef .tc main_v3) = _
  after_results_simp
  rfl

set_option maxHeartbeats 8000000 in
/-- The reciprocal clamped degrees. -/
theorem first_inv : (W1 (F := Ideal) m ρ c (Proc.devRef .tc main_v12) : FVec Ideal S100000x1 .f32) = invDeg (dstOf (m ((c : Thread nD τ).loc main_arg1))) := by
  show StableHlo.after hostOps0 (W0 m ρ c) (Proc.devRef .tc main_v12) = _
  after_results_simp
  rfl

set_option maxHeartbeats 8000000 in
/-- The neighbourhood mean of the input features. -/
theorem first_mean : (W1 (F := Ideal) m ρ c (Proc.devRef .tc main_v24) : FVec Ideal S100000x64 .f32)
    = aggMean64 (m ((c : Thread nD τ).loc main_arg0)) (srcOf (m ((c : Thread nD τ).loc main_arg1)))
        (dstOf (m ((c : Thread nD τ).loc main_arg1))) (invDeg (dstOf (m ((c : Thread nD τ).loc main_arg1)))) := by
  show StableHlo.after hostOps0 (W0 m ρ c) (Proc.devRef .tc main_v24) = _
  after_results_simp
  rfl

set_option maxHeartbeats 8000000 in
/-- Layer one's bias as a row. -/
theorem first_bias : (W1 (F := Ideal) m ρ c (Proc.devRef .tc main_v25) : FVec Ideal S1x128 .f32)
    = shapeCast S1x128 (m ((c : Thread nD τ).loc main_arg5)) Facts₀.shapeCasts_S128_S1x128 := by
  show StableHlo.after hostOps0 (W0 m ρ c) (Proc.devRef .tc main_v25) = _
  after_results_simp
  rfl

/-! ## After the first launch -/

/-- Layer one's output: the first launch's result array. -/
theorem mid_hidden : (W2 (F := Ideal) m ρ c (Proc.devRef .tc main_v26) : FVec Ideal S100000x128 .f32)
    = hiddenK (m ((c : Thread nD τ).loc main_arg0)) (m ((c : Thread nD τ).loc main_arg1)) (m ((c : Thread nD τ).loc main_arg3))
        (m ((c : Thread nD τ).loc main_arg4)) (m ((c : Thread nD τ).loc main_arg5)) := by
  refine ((W2_arr m ρ c 5).trans (region0_array (V1 m ρ) c)).trans ?_
  show layer64 (W1 m ρ c (Proc.devRef .tc main_v24)) (W1 m ρ c (Proc.devRef .tc main_arg0)) (W1 m ρ c (Proc.devRef .tc main_arg3))
    (W1 m ρ c (Proc.devRef .tc main_arg4)) (W1 m ρ c (Proc.devRef .tc main_v25)) = _
  rw [first_mean, first_arg0, first_arg3, first_arg4, first_bias]
  rfl

/-- The first launch writes none of these: the edge words, the reciprocal degrees, the later biases. -/
theorem mid_src : (W2 (F := Ideal) m ρ c (Proc.devRef .tc main_v1) : IVec S1600000 32) = srcOf (m ((c : Thread nD τ).loc main_arg1)) :=
  (W2_of_ne m ρ c main_v1 (by decide)).trans (first_src m ρ c)
theorem mid_dst : (W2 (F := Ideal) m ρ c (Proc.devRef .tc main_v3) : IVec S1600000 32) = dstOf (m ((c : Thread nD τ).loc main_arg1)) :=
  (W2_of_ne m ρ c main_v3 (by decide)).trans (first_dst m ρ c)
theorem mid_inv : (W2 (F := Ideal) m ρ c (Proc.devRef .tc main_v12) : FVec Ideal S100000x1 .f32) = invDeg (dstOf (m ((c : Thread nD τ).loc main_arg1))) :=
  (W2_of_ne m ρ c main_v12 (by decide)).trans (first_inv m ρ c)
theorem mid_arg8 : (W2 (F := Ideal) m ρ c (Proc.devRef .tc main_arg8) : FVec Ideal S128 .f32) = m ((c : Thread nD τ).loc main_arg8) :=
  (W2_of_ne m ρ c main_arg8 (by decide)).trans (first_arg8 m ρ c)
theorem mid_arg10 : (W2 (F := Ideal) m ρ c (Proc.devRef .tc main_arg10) : FVec Ideal S32 .f32) = m ((c : Thread nD τ).loc main_arg10) :=
  (W2_of_ne m ρ c main_arg10 (by decide)).trans (first_arg10 m ρ c)
theorem mid_arg12 : (W2 (F := Ideal) m ρ c (Proc.devRef .tc main_arg12) : FVec Ideal S1 .f32) = m ((c : Thread nD τ).loc main_arg12) :=
  (W2_of_ne m ρ c main_arg12 (by decide)).trans (first_arg12 m ρ c)

/-! ## After the second stretch of host operations -/

set_option maxHeartbeats 8000000 in
/-- The neighbourhood mean of layer one's output. -/
theorem second_mean : (W3 (F := Ideal) m ρ c (Proc.devRef .tc main_v38) : FVec Ideal S100000x128 .f32)
    = aggMean128 (W2 m ρ c (Proc.devRef .tc main_v26)) (W2 m ρ c (Proc.devRef .tc main_v1)) (W2 m ρ c (Proc.devRef .tc main_v3))
        (W2 m ρ c (Proc.devRef .tc main_v12)) := by
  show StableHlo.after hostOps1 (W2 m ρ c) (Proc.devRef .tc main_v38) = _
  after_results_simp
  rfl

set_option maxHeartbeats 8000000 in
/-- Layer one's output, untouched by the second stretch. -/
theorem second_hidden : (W3 (F := Ideal) m ρ c (Proc.devRef .tc main_v26) : FVec Ideal S100000x128 .f32) = W2 m ρ c (Proc.devRef .tc main_v26) := by
  show StableHlo.after hostOps1 (W2 m ρ c) (Proc.devRef .tc main_v26) = _
  after_results_simp

set_option maxHeartbeats 8000000 in
/-- Layer two's bias as a row. -/
theorem second_bias2 : (W3 (F := Ideal) m ρ c (Proc.devRef .tc main_v39) : FVec Ideal S1x128 .f32)
    = shapeCast S1x128 (W2 m ρ c (Proc.devRef .tc main_arg8)) Facts₀.shapeCasts_S128_S1x128 := by
  show StableHlo.after hostOps1 (W2 m ρ c) (Proc.devRef .tc main_v39) = _
  after_results_simp
  rfl

set_option maxHeartbeats 8000000 in
/-- The head's first bias as a row. -/
theorem second_bias3 : (W3 (F := Ideal) m ρ c (Proc.devRef .tc main_v40) : FVec Ideal S1x32 .f32)
    = shapeCast S1x32 (W2 m ρ c (Proc.devRef .tc main_arg10)) Facts₀.shapeCasts_S32_S1x32 := by
  show StableHlo.after hostOps1 (W2 m ρ c) (Proc.devRef .tc main_v40) = _
  after_results_simp
  rfl

set_option maxHeartbeats 8000000 in
/-- The head's second bias as a one-by-one array. -/
theorem second_bias4 : (W3 (F := Ideal) m ρ c (Proc.devRef .tc main_v41) : FVec Ideal S1x1 .f32)
    = shapeCast S1x1 (W2 m ρ c (Proc.devRef .tc main_arg12)) Facts₀.shapeCasts_S1_S1x1 := by
  show StableHlo.after hostOps1 (W2 m ρ c) (Proc.devRef .tc main_v41) = _
  after_results_simp
  rfl

/-- The weight arrays the second launch reads are arguments: an input window's array is what the launch found, and the
    run's last boundary has it as launched. -/
theorem second_arg6 : (W3 (F := Ideal) m ρ c (Proc.devRef .tc main_arg6) : FVec Ideal S128x128 .f32) = m ((c : Thread nD τ).loc main_arg6) :=
  ((W4_arr m ρ c 2).trans (((dat1 (V3 m ρ) c).arrAt_in 2 rfl _).trans (A_eq1 (V3 m ρ) c 2))).symm.trans (W4_main_arg6 m ρ c)
theorem second_arg7 : (W3 (F := Ideal) m ρ c (Proc.devRef .tc main_arg7) : FVec Ideal S128x128 .f32) = m ((c : Thread nD τ).loc main_arg7) :=
  ((W4_arr m ρ c 3).trans (((dat1 (V3 m ρ) c).arrAt_in 3 rfl _).trans (A_eq1 (V3 m ρ) c 3))).symm.trans (W4_main_arg7 m ρ c)
theorem second_arg9 : (W3 (F := Ideal) m ρ c (Proc.devRef .tc main_arg9) : FVec Ideal S128x32 .f32) = m ((c : Thread nD τ).loc main_arg9) :=
  ((W4_arr m ρ c 5).trans (((dat1 (V3 m ρ) c).arrAt_in 5 rfl _).trans (A_eq1 (V3 m ρ) c 5))).symm.trans (W4_main_arg9 m ρ c)
theorem second_arg11 : (W3 (F := Ideal) m ρ c (Proc.devRef .tc main_arg11) : FVec Ideal S32x1 .f32) = m ((c : Thread nD τ).loc main_arg11) :=
  ((W4_arr m ρ c 7).trans (((dat1 (V3 m ρ) c).arrAt_in 7 rfl _).trans (A_eq1 (V3 m ρ) c 7))).symm.trans (W4_main_arg11 m ρ c)

/-! ## After the second launch: the result -/

/-- The result buffer at the run's last boundary is the kernel's composed function of the arguments. -/
theorem kernel_value : (W4 (F := Ideal) m ρ c (Proc.devRef .tc main_v42) : FVec Ideal S100000x1 .f32)
    = kernelOut (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  refine ((W4_arr m ρ c 9).trans (region1_array (V3 m ρ) c)).trans ?_
  show head (layer128 (W3 m ρ c (Proc.devRef .tc main_v38)) (W3 m ρ c (Proc.devRef .tc main_v26)) (W3 m ρ c (Proc.devRef .tc main_arg6))
      (W3 m ρ c (Proc.devRef .tc main_arg7)) (W3 m ρ c (Proc.devRef .tc main_v39)))
    (W3 m ρ c (Proc.devRef .tc main_arg9)) (W3 m ρ c (Proc.devRef .tc main_v40)) (W3 m ρ c (Proc.devRef .tc main_arg11))
    (W3 m ρ c (Proc.devRef .tc main_v41)) = _
  rw [second_mean, second_hidden, second_arg6, second_arg7, second_bias2, second_arg9, second_bias3, second_arg11, second_bias4,
    mid_hidden, mid_src, mid_dst, mid_inv, mid_arg8, mid_arg10, mid_arg12]
  rfl

end Cert.Sage

end
-- ==== Proof.Degree.lean ====
/-
  The in-degree of a node, counted two ways.

  Both programs count, for each node `n`, the edges whose destination word is `n`, by scatter-adding ones into a
  zero array at the destination indices. The kernel's program does it in rank one (a ones vector of length E
  into a length-N array); the reference does it with a trailing unit axis (ones of shape [E, 1] into [N, 1]).
  At the ideal instance a scatter-add is the operand plus the exact sum of the updates that LAND on the element,
  and an update lands on the element whose coordinate on every axis is its start index plus its window
  coordinate, when that is inside the operand. In both forms update `e` starts at the word `idx[e, 0]` on the
  node axis with window coordinate zero there; the reference's unit axis adds start `0` and window coordinate
  `0`. So update `e` lands on node `n` (on `(n, 0)`) exactly when `idx[e, 0] = n` read as a signed integer, the
  two index sets correspond under `e ↦ (e, 0)`, and the two counts are sums of the same constant over
  corresponding sets.
-/
import proofs.«134655_j18760417149681_1_alg».proof.Proof.Gen.KernelIdeal
import proofs.«134655_j18760417149681_1_alg».proof.Proof.Gen.ReferenceIdeal
import Idealize.ShloMosaic.Lib.ValueIdx
import Idealize.ShloMosaic.PureOps.Ideal

noncomputable section

namespace Cert.Sage

open Idealize.ShloMosaic Idealize.ShloMosaic.ValueIdx

/-- An update lands on element `i` exactly when, on every axis of the operand, its start index plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have ha : (d.start j idx a + (d.window j a : Int)).toNat = (i a).val := congrArg (fun f => (f a).val) e'
      have := h a; omega
    · intro e
      refine congrArg some (funext fun a => Fin.ext ?_)
      have := e a; have := h a
      show (d.start j idx a + (d.window j a : Int)).toNat = (i a).val
      omega
  · rename_i h
    constructor
    · intro e; exact absurd e (by simp)
    · intro e; exfalso; apply h; intro a; have := e a; have := (i a).isLt; omega

/-- The kernel's degree scatter: ones of shape [E] into [N]. -/
abbrev degK := Cert.KernelIdeal.scatter_S100000_S1600000x1_S1600000_n_0_0_1
/-- The reference's degree scatter: ones of shape [E, 1] into [N, 1]. -/
abbrev degR := Cert.ReferenceIdeal.scatter_S100000x1_S1600000x1_S1600000x1_1_0_0_1

/-! ## The kernel's form -/

theorem degK_window (j : Cert.KernelIdeal.S1600000.Idx) : degK.window j 0 = 0 := by
  unfold ScatterDims.window
  rw [dif_neg (by decide)]

theorem degK_start (j : Cert.KernelIdeal.S1600000.Idx) (idx : IVec Cert.KernelIdeal.S1600000x1 32) :
    degK.start j idx 0 = (idx (ix2 (j 0) 0)).toInt := by
  unfold ScatterDims.start
  rw [dif_pos (by decide)]
  congr 2
  funext b
  match b with
  | ⟨0, _⟩ => rfl
  | ⟨1, _⟩ => rfl

/-- Update `e` of the kernel's degree scatter lands on node `n` iff its index word is `n`. -/
theorem degK_lands (j : Cert.KernelIdeal.S1600000.Idx) (idx : IVec Cert.KernelIdeal.S1600000x1 32) (n : Fin 100000) :
    degK.resultIdx? j idx = some (ix1 n) ↔ (idx (ix2 (j 0) 0)).toInt = (n.val : Int) := by
  rw [resultIdx?_eq_some_iff]
  constructor
  · intro h
    have h0 := h 0
    rw [degK_start, degK_window] at h0
    simpa using h0
  · intro h a
    match a with
    | ⟨0, _⟩ =>
      show degK.start j idx 0 + (degK.window j 0 : Int) = _
      rw [degK_start, degK_window, h]; simp

/-! ## The reference's form -/

theorem degR_window0 (j : Cert.ReferenceIdeal.S1600000x1.Idx) : degR.window j 0 = 0 := by
  unfold ScatterDims.window
  rw [dif_neg (by decide)]

theorem degR_window1 (j : Cert.ReferenceIdeal.S1600000x1.Idx) : degR.window j 1 = 0 := by
  unfold ScatterDims.window
  rw [dif_pos (by decide)]
  show (j 1).val = 0
  have : (j 1).val < 1 := (j 1).isLt
  omega

theorem degR_start0 (j : Cert.ReferenceIdeal.S1600000x1.Idx) (idx : IVec Cert.ReferenceIdeal.S1600000x1 32) :
    degR.start j idx 0 = (idx (ix2 (j 0) 0)).toInt := by
  unfold ScatterDims.start
  rw [dif_pos (by decide)]
  congr 2
  funext b
  match b with
  | ⟨0, _⟩ => rfl
  | ⟨1, _⟩ => rfl

theorem degR_start1 (j : Cert.ReferenceIdeal.S1600000x1.Idx) (idx : IVec Cert.ReferenceIdeal.S1600000x1 32) :
    degR.start j idx 1 = 0 := by
  unfold ScatterDims.start
  rw [dif_neg (by decide)]

/-- Update `(e, 0)` of the reference's degree scatter lands on `(n, 0)` iff its index word is `n`. -/
theorem degR_lands (j : Cert.ReferenceIdeal.S1600000x1.Idx) (idx : IVec Cert.ReferenceIdeal.S1600000x1 32) (n : Fin 100000) :
    degR.resultIdx? j idx = some (ix2 n 0) ↔ (idx (ix2 (j 0) 0)).toInt = (n.val : Int) := by
  rw [resultIdx?_eq_some_iff]
  constructor
  · intro h
    have h0 := h 0
    rw [degR_start0, degR_window0] at h0
    simpa using h0
  · intro h a
    match a with
    | ⟨0, _⟩ =>
      show degR.start j idx 0 + (degR.window j 0 : Int) = _
      rw [degR_start0, degR_window0, h]; simp
    | ⟨1, _⟩ =>
      show degR.start j idx 1 + (degR.window j 1 : Int) = _
      rw [degR_start1, degR_window1]; simp

/-! ## The two counts agree -/

/-- Edge `e` of the rank-one update array is edge `(e, 0)` of the one with a trailing unit axis. -/
def edgeEquiv : Cert.KernelIdeal.S1600000.Idx ≃ Cert.ReferenceIdeal.S1600000x1.Idx where
  toFun j := ix2 (j 0) 0
  invFun j := ix1 (j 0)
  left_inv j := (eq_ix1 j).symm
  right_inv j := by
    funext a
    match a with
    | ⟨0, _⟩ => rfl
    | ⟨1, _⟩ =>
      apply Fin.ext
      show (0 : Nat) = (j 1).val
      have : (j 1).val < 1 := (j 1).isLt
      omega

/-- The degree of node `n`: the kernel's rank-one scatter-add of a constant into a constant array and the
    reference's scatter-add with a trailing unit axis give the same extended real. The operands are any arrays
    that are constantly `z` (the zeros) and constantly `c` (the ones): nothing here evaluates a literal. -/
theorem degree_eq (idx : IVec Cert.KernelIdeal.S1600000x1 32)
    (zK : FVec Ideal Cert.KernelIdeal.S100000 .f32) (zR : FVec Ideal Cert.ReferenceIdeal.S100000x1 .f32)
    (uK : FVec Ideal Cert.KernelIdeal.S1600000 .f32) (uR : FVec Ideal Cert.ReferenceIdeal.S1600000x1 .f32)
    (z c : EReal) (hzK : ∀ i, zK i = z) (hzR : ∀ i, zR i = z) (huK : ∀ j, uK j = c) (huR : ∀ j, uR j = c)
    (n : Fin 100000) :
    Host.scatterAdd (F := Ideal) degK zK idx uK (ix1 n) = Host.scatterAdd (F := Ideal) degR zR idx uR (ix2 n 0) := by
  simp only [Host.scatterAdd, Ideal.hostScatterAdd_def]
  unfold Ideal.hostScatterAdd
  refine congrArg₂ (· + ·) ((hzK _).trans (hzR _).symm) ?_
  refine Finset.sum_equiv edgeEquiv (fun j => ?_) (fun j _ => (huK j).trans (huR _).symm)
  rw [Finset.mem_filter, Finset.mem_filter]
  refine and_congr (by simp) ?_
  exact (degK_lands j idx n).trans (degR_lands (edgeEquiv j) idx n).symm

end Cert.Sage

end
-- ==== Proof.Arith.lean ====
/-
  Extended-real arithmetic used where the two programs spell one number differently.

  * The mean of a node's incoming messages: the kernel multiplies the summed messages by the reciprocal
    `1 / max(deg, 1)`, the reference divides them by `max(deg, 1)`. On the extended reals division by a
    NONZERO divisor `d` is the product with `d⁻¹`, and `1 / d` is `d⁻¹` itself, so the two agree for every
    dividend, infinite ones included; `max(deg, 1) ≥ 1 > 0` whatever `deg` is, so the divisor is never zero.
  * A layer's three summands (neighbourhood term, own-feature term, bias): the kernel adds the bias last, the
    reference adds it second. Addition on the extended reals is commutative and associative, so the order does
    not matter.
-/
import Idealize.ShloMosaic.PureOps.Ideal

noncomputable section

namespace Cert.Sage

open Idealize.ShloMosaic

/-- The pattern of `1.0` denotes the real number one. -/
theorem ofBits_one : Ideal.ofBits .f32 0x3F800000#32 = 1 := by
  simp [Ideal.ofBits, Ideal.ieee, -EReal.coe_mul]; norm_num

/-- A degree clamped below by one is never zero. -/
theorem max_one_ne_zero (d : EReal) : max d (Ideal.ofBits .f32 0x3F800000#32) ≠ 0 := by
  rw [ofBits_one]
  exact ne_of_gt (lt_of_lt_of_le zero_lt_one (le_max_right d 1))

/-- Multiplying by the reciprocal of a nonzero divisor is dividing by it. -/
theorem mul_one_div {d : EReal} (hd : d ≠ 0) (a : EReal) :
    a * Ideal.div (Ideal.ofBits .f32 0x3F800000#32) d = Ideal.div a d := by
  unfold Ideal.div
  rw [if_neg hd, if_neg hd, ofBits_one, one_mul]

/-- The mean of the incoming messages, spelt as a product with the clamped degree's reciprocal or as a quotient
    by the clamped degree. -/
theorem mean_eq (a deg : EReal) :
    a * Ideal.div (Ideal.ofBits .f32 0x3F800000#32) (max deg (Ideal.ofBits .f32 0x3F800000#32))
      = Ideal.div a (max deg (Ideal.ofBits .f32 0x3F800000#32)) :=
  mul_one_div (max_one_ne_zero deg) a

/-- The layer's three summands in the kernel's order and in the reference's. -/
theorem add_bias_last (p q b : EReal) : (p + q) + b = (p + b) + q := add_right_comm p q b

end Cert.Sage

end
-- ==== Proof.Mean.lean ====
/-
  The neighbourhood mean on the two sides, and the biases as rows.

  Both programs sum each node's incoming messages with the same gather and scatter-add. The kernel's program then
  multiplies node `n`'s row by `1 / max(deg n, 1)`, the reference divides it by `max(deg n, 1)`; the degree is the same
  count in both (one counts with a trailing unit axis), and for a divisor that is never zero the product with the
  reciprocal is the quotient. A bias reshaped to a one-row array (the kernel's program) and a bias broadcast to a one-row
  array (the reference) hold the same entries.
-/
import proofs.«134655_j18760417149681_1_alg».proof.Proof.Terms
import proofs.«134655_j18760417149681_1_alg».proof.Proof.Degree
import proofs.«134655_j18760417149681_1_alg».proof.Proof.Arith
import proofs.«134655_j18760417149681_1_alg».proof.Proof.Gen.ReferenceIdeal.Read
import Idealize.ShloMosaic.Lib.Pipeline.Value
import Idealize.ShloMosaic.Lib.ValueIdx

noncomputable section

namespace Cert.Sage

open Idealize.ShloMosaic Idealize.ShloMosaic.ValueIdx Cert.KernelIdeal Cert.KernelIdeal.Facts₀
open Cert.ReferenceIdeal.Read (val_main_v13 val_main_v17 val_main_v19 val_main_v20 val_main_v21 val_main_v23 val_main_v27
  val_main_v37 val_main_v41 val_main_v43 val_main_v44 val_main_v45 val_main_v47 val_main_v53 val_main_v57
  val_main_v19_apply val_main_v20_apply val_main_v21_apply val_main_v43_apply val_main_v44_apply val_main_v45_apply
  val_main_v23_apply val_main_v47_apply val_main_v53_apply val_main_v57_apply)

/-- A host quotient read at an index. -/
theorem hostDivf_apply {s : Shape} (a b : FVec Ideal s .f32) (i : s.Idx) : Host.divf a b i = Ideal.div (a i) (b i) := rfl

/-- The array of ones over the nodes reads one everywhere. -/
theorem ones_apply (i : S100000.Idx) :
    broadcastInDim S100000 ![] Facts₀.bcast_S_S100000 (constant (F := Ideal) S_ .f32 0x3F800000#32) i
      = Ideal.ofBits .f32 0x3F800000#32 := rfl

/-- The reciprocal clamped degree of node `n`, read out of its column. -/
theorem invDeg_apply (dst : IVec S1600000 32) (n : Fin 100000) :
    invDeg dst (ix2 n 0)
      = Ideal.div (Ideal.ofBits .f32 0x3F800000#32) (max (degree dst (ix1 n)) (Ideal.ofBits .f32 0x3F800000#32)) := by
  unfold invDeg
  refine (shapeCast_apply _ Facts₀.shapeCasts_S100000_S100000x1 (ix2 n 0) (ix1 n) ?_).trans ?_
  · rewrite [Shape.rowMajor_val_one, Shape.rowMajor_val_two]
    show n.val = n.val * 1 + 0
    omega
  · refine (hostDivf_apply _ _ _).trans ?_
    refine congrArg₂ Ideal.div (ones_apply _) ?_
    refine (maximumf_apply _ _ _).trans ?_
    exact congrArg (max (degree dst (ix1 n))) (ones_apply _)

/-- The summed messages of 64 features are the reference's stage: the same gather and scatter-add of the same
    operands (the two programs' dimension records have the same fields). -/
theorem agg64_ref (x0 : FVec Ideal S100000x64 .f32) (x1 : IVec S2x1600000 32) :
    agg64 x0 (srcOf x1) (dstOf x1) = val_main_v13 (F := Ideal) x0 x1 := rfl

/-- The in-degree of node `n` in the kernel's rank-one form is the reference's, with its trailing unit axis. -/
theorem degree64_ref (x1 : IVec S2x1600000 32) (n : Fin 100000) :
    degree (dstOf x1) (ix1 n) = val_main_v17 (F := Ideal) x1 (ix2 n 0) := by
  unfold degree val_main_v17
  exact degree_eq _ _ _ _ _ (Ideal.ofBits .f32 0x00000000#32) (Ideal.ofBits .f32 0x3F800000#32)
    (fun _ => rfl) (fun _ => rfl) (fun _ => rfl) (fun _ => rfl) n

/-- The neighbourhood mean of 64 features: the kernel's product with the reciprocal clamped degree is the reference's
    quotient by the clamped degree, entry by entry. -/
theorem mean64_ref (x0 : FVec Ideal S100000x64 .f32) (x1 : IVec S2x1600000 32) :
    aggMean64 x0 (srcOf x1) (dstOf x1) (invDeg (dstOf x1)) = val_main_v21 (F := Ideal) x0 x1 := by
  funext i
  obtain ⟨n, f, rfl⟩ : ∃ (n : Fin 100000) (f : Fin 64), i = ix2 n f := ⟨i 0, i 1, eq_ix2 i⟩
  -- the reference's entry: the summed messages over the clamped degree
  have hR : val_main_v21 (F := Ideal) x0 x1 (ix2 n f)
      = Ideal.div (val_main_v13 (F := Ideal) x0 x1 (ix2 n f))
          (max (val_main_v17 (F := Ideal) x1 (ix2 n 0)) (Ideal.ofBits .f32 0x3F800000#32)) := by
    rw [val_main_v21_apply, val_main_v20_apply, val_main_v19_apply]
    have ei : Cert.ReferenceIdeal.Read.idx_main_v20 (ix2 n f) = ix2 n 0 := funext fun a => Fin.ext (by
      match a with | ⟨0, _⟩ => rfl | ⟨1, _⟩ => rfl)
    rw [ei]
    rfl
  -- the kernel's entry: the summed messages times the reciprocal clamped degree
  have hL : aggMean64 x0 (srcOf x1) (dstOf x1) (invDeg (dstOf x1)) (ix2 n f)
      = agg64 x0 (srcOf x1) (dstOf x1) (ix2 n f)
          * Ideal.div (Ideal.ofBits .f32 0x3F800000#32) (max (degree (dstOf x1) (ix1 n)) (Ideal.ofBits .f32 0x3F800000#32)) := by
    unfold aggMean64
    refine (mulf_apply _ _ _).trans (congrArg (agg64 x0 (srcOf x1) (dstOf x1) (ix2 n f) * ·) ?_)
    refine (broadcastInDim_apply _ Facts₀.bcast_S100000x1_S100000x64_0_1 (invDeg (dstOf x1)) (ix2 n f) (ix2 n 0) (fun a => match a with
      | ⟨0, _⟩ => by show n.val = if (100000 : Nat) = 1 then 0 else n.val; rw [if_neg (by decide)]
      | ⟨1, _⟩ => by show 0 = if (1 : Nat) = 1 then 0 else f.val; rw [if_pos rfl])).trans ?_
    exact invDeg_apply (dstOf x1) n
  refine hL.trans (Eq.trans ?_ hR.symm)
  rw [← agg64_ref, ← degree64_ref]
  exact mean_eq _ _

/-- The summed messages of 128 features are the reference's stage: the same gather and scatter-add of the same
    operands (the two programs' dimension records have the same fields). -/
theorem agg128_ref (x0 : FVec Ideal S100000x64 .f32) (x1 : IVec S2x1600000 32) (x3 x4 : FVec Ideal S64x128 .f32) (x5 : FVec Ideal S128 .f32) :
    agg128 (val_main_v27 (F := Ideal) x0 x1 x3 x4 x5) (srcOf x1) (dstOf x1) = val_main_v37 (F := Ideal) x0 x1 x3 x4 x5 := rfl

/-- The in-degree of node `n` in the kernel's rank-one form is the reference's, with its trailing unit axis. -/
theorem degree128_ref (x1 : IVec S2x1600000 32) (n : Fin 100000) :
    degree (dstOf x1) (ix1 n) = val_main_v41 (F := Ideal) x1 (ix2 n 0) := by
  unfold degree val_main_v41
  exact degree_eq _ _ _ _ _ (Ideal.ofBits .f32 0x00000000#32) (Ideal.ofBits .f32 0x3F800000#32)
    (fun _ => rfl) (fun _ => rfl) (fun _ => rfl) (fun _ => rfl) n

/-- The neighbourhood mean of 128 features: the kernel's product with the reciprocal clamped degree is the reference's
    quotient by the clamped degree, entry by entry. -/
theorem mean128_ref (x0 : FVec Ideal S100000x64 .f32) (x1 : IVec S2x1600000 32) (x3 x4 : FVec Ideal S64x128 .f32) (x5 : FVec Ideal S128 .f32) :
    aggMean128 (val_main_v27 (F := Ideal) x0 x1 x3 x4 x5) (srcOf x1) (dstOf x1) (invDeg (dstOf x1)) = val_main_v45 (F := Ideal) x0 x1 x3 x4 x5 := by
  funext i
  obtain ⟨n, f, rfl⟩ : ∃ (n : Fin 100000) (f : Fin 128), i = ix2 n f := ⟨i 0, i 1, eq_ix2 i⟩
  -- the reference's entry: the summed messages over the clamped degree
  have hR : val_main_v45 (F := Ideal) x0 x1 x3 x4 x5 (ix2 n f)
      = Ideal.div (val_main_v37 (F := Ideal) x0 x1 x3 x4 x5 (ix2 n f))
          (max (val_main_v41 (F := Ideal) x1 (ix2 n 0)) (Ideal.ofBits .f32 0x3F800000#32)) := by
    rw [val_main_v45_apply, val_main_v44_apply, val_main_v43_apply]
    have ei : Cert.ReferenceIdeal.Read.idx_main_v44 (ix2 n f) = ix2 n 0 := funext fun a => Fin.ext (by
      match a with | ⟨0, _⟩ => rfl | ⟨1, _⟩ => rfl)
    rw [ei]
    rfl
  -- the kernel's entry: the summed messages times the reciprocal clamped degree
  have hL : aggMean128 (val_main_v27 (F := Ideal) x0 x1 x3 x4 x5) (srcOf x1) (dstOf x1) (invDeg (dstOf x1)) (ix2 n f)
      = agg128 (val_main_v27 (F := Ideal) x0 x1 x3 x4 x5) (srcOf x1) (dstOf x1) (ix2 n f)
          * Ideal.div (Ideal.ofBits .f32 0x3F800000#32) (max (degree (dstOf x1) (ix1 n)) (Ideal.ofBits .f32 0x3F800000#32)) := by
    unfold aggMean128
    refine (mulf_apply _ _ _).trans (congrArg (agg128 (val_main_v27 (F := Ideal) x0 x1 x3 x4 x5) (srcOf x1) (dstOf x1) (ix2 n f) * ·) ?_)
    refine (broadcastInDim_apply _ Facts₀.bcast_S100000x1_S100000x128_0_1 (invDeg (dstOf x1)) (ix2 n f) (ix2 n 0) (fun a => match a with
      | ⟨0, _⟩ => by show n.val = if (100000 : Nat) = 1 then 0 else n.val; rw [if_neg (by decide)]
      | ⟨1, _⟩ => by show 0 = if (1 : Nat) = 1 then 0 else f.val; rw [if_pos rfl])).trans ?_
    exact invDeg_apply (dstOf x1) n
  refine hL.trans (Eq.trans ?_ hR.symm)
  rw [← agg128_ref, ← degree128_ref]
  exact mean_eq _ _

/-! ## The biases as rows -/

/-- A 128-entry bias reshaped to one row is the bias broadcast to one row (layer one's). -/
theorem row_b1 (x5 : FVec Ideal S128 .f32) :
    shapeCast S1x128 x5 Facts₀.shapeCasts_S128_S1x128 = val_main_v23 (F := Ideal) x5 := by
  funext j
  obtain ⟨z, q, rfl⟩ : ∃ (z : Fin 1) (q : Fin 128), j = ix2 z q := ⟨j 0, j 1, eq_ix2 j⟩
  rw [val_main_v23_apply, shapeCast_apply x5 Facts₀.shapeCasts_S128_S1x128 (ix2 z q) (ix1 q)
    (by rewrite [Shape.rowMajor_val_one, Shape.rowMajor_val_two]; show q.val = z.val * 128 + q.val; have := z.isLt; omega)]
  exact congrArg x5 (funext fun a => Fin.ext (by match a with | ⟨0, _⟩ => rfl))

/-- The same for layer two's bias. -/
theorem row_b2 (x8 : FVec Ideal S128 .f32) :
    shapeCast S1x128 x8 Facts₀.shapeCasts_S128_S1x128 = val_main_v47 (F := Ideal) x8 := by
  funext j
  obtain ⟨z, q, rfl⟩ : ∃ (z : Fin 1) (q : Fin 128), j = ix2 z q := ⟨j 0, j 1, eq_ix2 j⟩
  rw [val_main_v47_apply, shapeCast_apply x8 Facts₀.shapeCasts_S128_S1x128 (ix2 z q) (ix1 q)
    (by rewrite [Shape.rowMajor_val_one, Shape.rowMajor_val_two]; show q.val = z.val * 128 + q.val; have := z.isLt; omega)]
  exact congrArg x8 (funext fun a => Fin.ext (by match a with | ⟨0, _⟩ => rfl))

/-- The head's 32-entry bias as one row. -/
theorem row_b3 (x10 : FVec Ideal S32 .f32) :
    shapeCast S1x32 x10 Facts₀.shapeCasts_S32_S1x32 = val_main_v53 (F := Ideal) x10 := by
  funext j
  obtain ⟨z, q, rfl⟩ : ∃ (z : Fin 1) (q : Fin 32), j = ix2 z q := ⟨j 0, j 1, eq_ix2 j⟩
  rw [val_main_v53_apply, shapeCast_apply x10 Facts₀.shapeCasts_S32_S1x32 (ix2 z q) (ix1 q)
    (by rewrite [Shape.rowMajor_val_one, Shape.rowMajor_val_two]; show q.val = z.val * 32 + q.val; have := z.isLt; omega)]
  exact congrArg x10 (funext fun a => Fin.ext (by match a with | ⟨0, _⟩ => rfl))

/-- The head's scalar bias as a one-by-one array. -/
theorem row_b4 (x12 : FVec Ideal S1 .f32) :
    shapeCast S1x1 x12 Facts₀.shapeCasts_S1_S1x1 = val_main_v57 (F := Ideal) x12 := by
  funext j
  obtain ⟨z, q, rfl⟩ : ∃ (z : Fin 1) (q : Fin 1), j = ix2 z q := ⟨j 0, j 1, eq_ix2 j⟩
  rw [val_main_v57_apply, shapeCast_apply x12 Facts₀.shapeCasts_S1_S1x1 (ix2 z q) (ix1 q)
    (by rewrite [Shape.rowMajor_val_one, Shape.rowMajor_val_two]; show q.val = z.val * 1 + q.val; have := z.isLt; omega)]
  exact congrArg x12 (funext fun a => Fin.ext (by
    match a with | ⟨0, _⟩ => show q.val = 0; have : q.val < 1 := q.isLt; omega))

end Cert.Sage

end
-- ==== Proof.RefLayers.lean ====
/-
  The reference program's stages, read as the layer and head functions.

  The reference computes a layer as (mean · Wl + bias) + x · Wr, each product a contraction over the feature axis
  read at a node and an output feature; the layer function adds the bias last. The two groupings agree by
  commutativity and associativity of addition on the extended reals. The head is the same two contractions and two
  bias additions in the same order on both sides.
-/
import proofs.«134655_j18760417149681_1_alg».proof.Proof.Gen.ReferenceIdeal.Read
import proofs.«134655_j18760417149681_1_alg».proof.Proof.Layer
import proofs.«134655_j18760417149681_1_alg».proof.Proof.Arith

noncomputable section

namespace Cert.Sage

open Idealize.ShloMosaic Idealize.ShloMosaic.ValueIdx Cert.ReferenceIdeal Cert.ReferenceIdeal.Read

/-- Layer one of the reference is the layer function of its neighbourhood mean, the input features, the two
    weight matrices and the bias as a row. -/
theorem ref_layer1 (x0 : FVec Ideal S100000x64 .f32) (x1 : IVec S2x1600000 32) (x3 x4 : FVec Ideal S64x128 .f32)
    (x5 : FVec Ideal S128 .f32) :
    val_main_v27 (F := Ideal) x0 x1 x3 x4 x5
      = layer64 (val_main_v21 (F := Ideal) x0 x1) x0 x3 x4 (val_main_v23 (F := Ideal) x5) := by
  funext i
  rw [val_main_v27_apply, val_main_v25_apply, val_main_v22_apply, val_main_v24_apply, val_main_v26_apply]
  have el : ∀ k, lidx_main_v22 i k = ix2 (i 0) k := fun k => funext fun a => Fin.ext (by
    match a with | ⟨0, _⟩ => rfl | ⟨1, _⟩ => rfl)
  have er : ∀ k, ridx_main_v22 i k = ix2 k (i 1) := fun k => funext fun a => Fin.ext (by
    match a with | ⟨0, _⟩ => rfl | ⟨1, _⟩ => rfl)
  have el' : ∀ k, lidx_main_v26 i k = ix2 (i 0) k := fun k => funext fun a => Fin.ext (by
    match a with | ⟨0, _⟩ => rfl | ⟨1, _⟩ => rfl)
  have er' : ∀ k, ridx_main_v26 i k = ix2 k (i 1) := fun k => funext fun a => Fin.ext (by
    match a with | ⟨0, _⟩ => rfl | ⟨1, _⟩ => rfl)
  have eb : idx_main_v24 i = ix2 0 (i 1) := funext fun a => Fin.ext (by
    match a with | ⟨0, _⟩ => rfl | ⟨1, _⟩ => rfl)
  simp only [el, er, el', er', eb, Ideal.addf_def]
  exact (add_bias_last _ _ _).symm

/-- Layer two of the reference is the layer function of its neighbourhood mean of layer one, layer one itself, the
    two weight matrices and the bias as a row. -/
theorem ref_layer2 (x0 : FVec Ideal S100000x64 .f32) (x1 : IVec S2x1600000 32) (x3 x4 : FVec Ideal S64x128 .f32)
    (x5 : FVec Ideal S128 .f32) (x6 x7 : FVec Ideal S128x128 .f32) (x8 : FVec Ideal S128 .f32) :
    val_main_v51 (F := Ideal) x0 x1 x3 x4 x5 x6 x7 x8
      = layer128 (val_main_v45 (F := Ideal) x0 x1 x3 x4 x5) (val_main_v27 (F := Ideal) x0 x1 x3 x4 x5) x6 x7
          (val_main_v47 (F := Ideal) x8) := by
  funext i
  rw [val_main_v51_apply, val_main_v49_apply, val_main_v46_apply, val_main_v48_apply, val_main_v50_apply]
  have el : ∀ k, lidx_main_v46 i k = ix2 (i 0) k := fun k => funext fun a => Fin.ext (by
    match a with | ⟨0, _⟩ => rfl | ⟨1, _⟩ => rfl)
  have er : ∀ k, ridx_main_v46 i k = ix2 k (i 1) := fun k => funext fun a => Fin.ext (by
    match a with | ⟨0, _⟩ => rfl | ⟨1, _⟩ => rfl)
  have el' : ∀ k, lidx_main_v50 i k = ix2 (i 0) k := fun k => funext fun a => Fin.ext (by
    match a with | ⟨0, _⟩ => rfl | ⟨1, _⟩ => rfl)
  have er' : ∀ k, ridx_main_v50 i k = ix2 k (i 1) := fun k => funext fun a => Fin.ext (by
    match a with | ⟨0, _⟩ => rfl | ⟨1, _⟩ => rfl)
  have eb : idx_main_v48 i = ix2 0 (i 1) := funext fun a => Fin.ext (by
    match a with | ⟨0, _⟩ => rfl | ⟨1, _⟩ => rfl)
  simp only [el, er, el', er', eb, Ideal.addf_def]
  exact (add_bias_last _ _ _).symm

/-- The reference's result is the head of its layer two. -/
theorem ref_head (x0 : FVec Ideal S100000x64 .f32) (x1 : IVec S2x1600000 32) (x3 x4 : FVec Ideal S64x128 .f32)
    (x5 : FVec Ideal S128 .f32) (x6 x7 : FVec Ideal S128x128 .f32) (x8 : FVec Ideal S128 .f32)
    (x9 : FVec Ideal S128x32 .f32) (x10 : FVec Ideal S32 .f32) (x11 : FVec Ideal S32x1 .f32) (x12 : FVec Ideal S1 .f32) :
    val_main_v59 (F := Ideal) x0 x1 x3 x4 x5 x6 x7 x8 x9 x10 x11 x12
      = head (val_main_v51 (F := Ideal) x0 x1 x3 x4 x5 x6 x7 x8) x9 (val_main_v53 (F := Ideal) x10) x11
          (val_main_v57 (F := Ideal) x12) := by
  funext i
  obtain ⟨n, z, rfl⟩ : ∃ (n : Fin 100000) (z : Fin 1), i = ix2 n z := ⟨i 0, i 1, eq_ix2 i⟩
  -- the hidden 32 features of node `n`: a contraction of layer two's row with the first dense matrix, plus its bias
  have hid : ∀ k : Fin 32, val_main_v55 (F := Ideal) x0 x1 x3 x4 x5 x6 x7 x8 x9 x10 (ix2 n k)
      = (∑ j : Fin 128, val_main_v51 (F := Ideal) x0 x1 x3 x4 x5 x6 x7 x8 (ix2 n j) * x9 (ix2 j k))
          + val_main_v53 (F := Ideal) x10 (ix2 0 k) := by
    intro k
    rw [val_main_v55_apply, val_main_v52_apply, val_main_v54_apply]
    have el2 : ∀ j : Fin 128, lidx_main_v52 (ix2 n k) j = ix2 n j := fun j => funext fun a => Fin.ext (by
      match a with | ⟨0, _⟩ => rfl | ⟨1, _⟩ => rfl)
    have er2 : ∀ j : Fin 128, ridx_main_v52 (ix2 n k) j = ix2 j k := fun j => funext fun a => Fin.ext (by
      match a with | ⟨0, _⟩ => rfl | ⟨1, _⟩ => rfl)
    have eb2 : idx_main_v54 (ix2 n k) = ix2 0 k := funext fun a => Fin.ext (by
      match a with | ⟨0, _⟩ => rfl | ⟨1, _⟩ => rfl)
    simp only [el2, er2, eb2, Ideal.addf_def]
  rw [val_main_v59_apply, val_main_v56_apply, val_main_v58_apply]
  have el : ∀ k : Fin 32, lidx_main_v56 (ix2 n z) k = ix2 n k := fun k => funext fun a => Fin.ext (by
    match a with | ⟨0, _⟩ => rfl | ⟨1, _⟩ => rfl)
  have er : ∀ k : Fin 32, ridx_main_v56 (ix2 n z) k = ix2 k 0 := fun k => funext fun a => Fin.ext (by
    match a with
    | ⟨0, _⟩ => rfl
    | ⟨1, _⟩ => show z.val = 0; have : z.val < 1 := z.isLt; omega)
  have eb : idx_main_v58 (ix2 n z) = ix2 0 0 := funext fun a => Fin.ext (by
    match a with | ⟨0, _⟩ => rfl | ⟨1, _⟩ => rfl)
  simp only [el, er, eb, Ideal.addf_def, hid]
  rfl

end Cert.Sage

end
-- ==== Proof.Bridge.lean ====
/-
  The kernel's program and the reference compute one function of the arguments.

  Layer by layer: the neighbourhood means agree (same summed messages, same degree, a nonzero divisor), so layer one's
  outputs agree (the layer function on equal inputs, the reference's summands regrouped); then the neighbourhood means
  of layer one's output agree for the same reason, so layer two's outputs agree; the head is the same function on both
  sides.
-/
import proofs.«134655_j18760417149681_1_alg».proof.Proof.Mean
import proofs.«134655_j18760417149681_1_alg».proof.Proof.RefLayers

noncomputable section

namespace Cert.Sage

open Idealize.ShloMosaic Cert.KernelIdeal
open Cert.ReferenceIdeal.Read (val_main_v27 val_main_v59)

/-- Layer one's output on the two sides. -/
theorem hidden_eq_ref (x0 : FVec Ideal S100000x64 .f32) (x1 : IVec S2x1600000 32) (x3 x4 : FVec Ideal S64x128 .f32)
    (x5 : FVec Ideal S128 .f32) :
    hiddenK x0 x1 x3 x4 x5 = val_main_v27 (F := Ideal) x0 x1 x3 x4 x5 := by
  unfold hiddenK
  rw [mean64_ref, row_b1]
  exact (ref_layer1 x0 x1 x3 x4 x5).symm

/-- The two programs' results, as functions of the arguments, are equal. -/
theorem kernelOut_eq_ref (x0 : FVec Ideal S100000x64 .f32) (x1 : IVec S2x1600000 32) (x3 x4 : FVec Ideal S64x128 .f32)
    (x5 : FVec Ideal S128 .f32) (x6 x7 : FVec Ideal S128x128 .f32) (x8 : FVec Ideal S128 .f32)
    (x9 : FVec Ideal S128x32 .f32) (x10 : FVec Ideal S32 .f32) (x11 : FVec Ideal S32x1 .f32) (x12 : FVec Ideal S1 .f32) :
    kernelOut x0 x1 x3 x4 x5 x6 x7 x8 x9 x10 x11 x12
      = val_main_v59 (F := Ideal) x0 x1 x3 x4 x5 x6 x7 x8 x9 x10 x11 x12 := by
  unfold kernelOut
  rw [hidden_eq_ref, mean128_ref, row_b2, row_b3, row_b4]
  exact ((ref_head x0 x1 x3 x4 x5 x6 x7 x8 x9 x10 x11 x12).trans
    (congrArg (fun h => head h x9 _ x11 _) (ref_layer2 x0 x1 x3 x4 x5 x6 x7 x8))).symm

end Cert.Sage

end
-- ==== Proof.lean ====
/-
  The kernel's program (two fused layer launches among host gathers and scatter-adds) against the jnp reference,
  over the extended reals.

  Both programs compute a two-layer graph convolution with mean aggregation and a two-layer dense head. They differ in
  three spellings, none of which changes a value on the extended reals:
    * the in-degree is counted by a rank-one scatter-add of ones in the kernel's program and by one with a trailing
      unit axis in the reference: the same count (Proof/Degree.lean);
    * the mean of a node's incoming messages is the sum times 1 / max(deg, 1) in the kernel's program and the sum
      divided by max(deg, 1) in the reference: equal because the divisor is at least one, hence nonzero, for every
      dividend, infinite ones included (Proof/Arith.lean, Proof/Mean.lean);
    * a layer adds its bias last in the kernels and second in the reference: addition is commutative and associative
      (Proof/Arith.lean, Proof/RefLayers.lean).
  Rounding to the narrower float format before each matrix product is the identity at the ideal values, and a matrix
  product into a zero accumulator is the reference's contraction.
  The frames of the two kernel programs are the generated frame certificates; the reference's is its generated run with
  the result dropped; no operation was rewritten when the kernel was idealized, so that claim is trivial. For the value
  claim the kernel's run is the frame's launch call with the result read beside the arguments (Proof/KernelRun.lean),
  each launch's output array is the layer or head function of the arrays it was handed (Proof/Region0.lean,
  Proof/Region1.lean), the host stretches are read back buffer by buffer (Proof/KernelValue.lean), and the reference's
  stages are read as the same functions (Proof/RefLayers.lean, Proof/Bridge.lean). The precondition is never opened:
  no step needs finiteness.
-/
import proofs.«134655_j18760417149681_1_alg».proof.Defs
import proofs.«134655_j18760417149681_1_alg».proof.Proof.Gen.Kernel
import proofs.«134655_j18760417149681_1_alg».proof.Proof.Gen.Kernel.Skeleton
import proofs.«134655_j18760417149681_1_alg».proof.Proof.Gen.Kernel.Launch
import proofs.«134655_j18760417149681_1_alg».proof.Proof.Gen.Kernel.Points
import proofs.«134655_j18760417149681_1_alg».proof.Proof.Gen.Kernel.Frame
import proofs.«134655_j18760417149681_1_alg».proof.Proof.Gen.KernelIdeal
import proofs.«134655_j18760417149681_1_alg».proof.Proof.Gen.KernelIdeal.Skeleton
import proofs.«134655_j18760417149681_1_alg».proof.Proof.Gen.KernelIdeal.Launch
import proofs.«134655_j18760417149681_1_alg».proof.Proof.Gen.KernelIdeal.Points
import proofs.«134655_j18760417149681_1_alg».proof.Proof.Gen.KernelIdeal.Frame
import proofs.«134655_j18760417149681_1_alg».proof.Proof.Gen.ReferenceIdeal
import proofs.«134655_j18760417149681_1_alg».proof.Proof.Gen.ReferenceIdeal.Run
import proofs.«134655_j18760417149681_1_alg».proof.Proof.Gen.ReferenceIdeal.Read
import proofs.«134655_j18760417149681_1_alg».proof.Proof.Gen.Pre_finite_inputs
import proofs.«134655_j18760417149681_1_alg».proof.Proof.KernelRun
import proofs.«134655_j18760417149681_1_alg».proof.Proof.KernelValue
import proofs.«134655_j18760417149681_1_alg».proof.Proof.Bridge
import Idealize.ShloMosaic.Adequacy
import Idealize.ShloMosaic.Init

noncomputable section

namespace Cert.Proof

open Idealize.ShloMosaic Idealize.SL.Sem

/-- The word-level kernel program runs and leaves its arguments as launched: the generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments as launched: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's composed function
    of the arguments, which is the reference's (`Cert.Sage.kernelOut_eq_ref`). -/
theorem algebraic : Cert.algebraic_KernelIdeal_ReferenceIdeal := by
  intro m ρ m' ρ' _ hagree
  refine ⟨fun c => Cert.Sage.kernelOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Sage.kernel_value m ρ c), (h c).2⟩)
      (Cert.KernelIdeal.ValueRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, -, e3, e4, e5, e6, e7, e8, e9, e10, e11, e12⟩ := hagree c
    rw [Cert.ReferenceIdeal.Read.val_main_v59_eq, e0, e1, e3, e4, e5, e6, e7, e8, e9, e10, e11, e12]
    exact (Cert.Sage.kernelOut_eq_ref _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
